-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S16x7 .f32) (main_arg6 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg5
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x7 .f32) (main_arg6 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000x16 : Shape := ⟨2, ![100000, 16]⟩
abbrev S10000x512 : Shape := ⟨2, ![10000, 512]⟩
abbrev S10000x16 : Shape := ⟨2, ![10000, 16]⟩
abbrev S1x3200000 : Shape := ⟨2, ![1, 3200000]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S100000x7 : Shape := ⟨2, ![100000, 7]⟩
abbrev S10000x7 : Shape := ⟨2, ![10000, 7]⟩
abbrev S3200000x7 : Shape := ⟨2, ![3200000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 52
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S100000x16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S3200000x16, .f32⟩
  | .hbm, ⟨23, _⟩ => ⟨S3200000x16, .f32⟩
  | .hbm, ⟨24, _⟩ => ⟨S_, .f32⟩
  | .hbm, ⟨25, _⟩ => ⟨S100000x16, .f32⟩
  | .hbm, ⟨26, _⟩ => ⟨S3200000x1, .i32⟩
  | .hbm, ⟨27, _⟩ => ⟨S100000x16, .f32⟩
  | .hbm, ⟨28, _⟩ => ⟨S1x16, .f32⟩
  | .hbm, ⟨29, _⟩ => ⟨S100000x7, .f32⟩
  | .hbm, ⟨30, _⟩ => ⟨S1x3200000, .i32⟩
  | .hbm, ⟨31, _⟩ => ⟨S3200000, .i32⟩
  | .hbm, ⟨32, _⟩ => ⟨S1x3200000, .i32⟩
  | .hbm, ⟨33, _⟩ => ⟨S3200000, .i32⟩
  | .hbm, ⟨34, _⟩ => ⟨S3200000x1, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x7, .f32⟩
  | .hbm, ⟨44, _⟩ => ⟨S3200000x7, .f32⟩
  | .hbm, ⟨45, _⟩ => ⟨S3200000x7, .f32⟩
  | .hbm, ⟨46, _⟩ => ⟨S_, .f32⟩
  | .hbm, ⟨47, _⟩ => ⟨S100000x7, .f32⟩
  | .hbm, ⟨48, _⟩ => ⟨S3200000x1, .i32⟩
  | .hbm, ⟨49, _⟩ => ⟨S100000x7, .f32⟩
  | .hbm, ⟨50, _⟩ => ⟨S1x7, .f32⟩
  | .hbm, ⟨51, _⟩ => ⟨S100000x7, .f32⟩
  | .local _ .vmem, ⟨0, _⟩ => ⟨S10000x512, .f32⟩
  | .local _ .vmem, ⟨1, _⟩ => ⟨S10000x512, .f32⟩
  | .local _ .vmem, ⟨2, _⟩ => ⟨S512x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x7, .f32⟩
  | .local _ .vmem, ⟨9, _⟩ => ⟨S10000x7, .f32⟩
  | .local _ .vmem, ⟨10, _⟩ => ⟨S10000x7, .f32⟩
  | .local _ .vmem, ⟨11, _⟩ => ⟨S10000x7, .f32⟩
  | .local _ .vmem, ⟨12, _⟩ => ⟨S10000x7, .f32⟩
  | .local _ .vmem, ⟨13, _⟩ => ⟨S1x7, .f32⟩
  | .local _ .vmem, ⟨14, _⟩ => ⟨S10000x7, .f32⟩
  | .local _ .vmem, ⟨15, _⟩ => ⟨S10000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S10000x512_S10000x512_0_0 : ∀ a, (![0, 0] : Fin 2 → Nat) a + S10000x512.size a ≤ S10000x512.size a
  h_S10000x512 : 0 < S10000x512.numel
  inb_S512x16_S512x16_0_0 : ∀ a, (![0, 0] : Fin 2 → Nat) a + S512x16.size a ≤ S512x16.size a
  h_S512x16 : 0 < S512x16.numel
  inb_S10000x16_S10000x16_0_0 : ∀ a, (![0, 0] : Fin 2 → Nat) a + S10000x16.size a ≤ S10000x16.size a
  h_S10000x16 : 0 < S10000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3200000x1_S3200000x7_0_1 : S3200000x1.BroadcastsInDim S3200000x7 (![0, 1] : Fin 2 → Fin S3200000x7.rank)
  bcast_S_S100000x7 : S_.BroadcastsInDim S100000x7 (![] : Fin 0 → Fin S100000x7.rank)
  shapeCasts_S7_S1x7 : S7.ShapeCasts S1x7
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  reduces_S10000x7_S10000 : S10000x7.Reduces [1] S10000
  shapeCasts_S10000_S10000x1 : S10000.ShapeCasts S10000x1
  broadcasts_S10000x1_S10000x7 : S10000x1.Broadcasts S10000x7
  dot_S10000x512_S512x16_S10000x16_1_0_0_1_n_n_wf : DotDims.WF S10000x512 S512x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x7_S10000x7_1_0_0_1_n_n_wf : DotDims.WF S10000x16 S16x7 S10000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x512.size a ≤ S100000x512.size a
  hwx0_0 : ∀ i : grid0.Coords, EltTy.bits .f32 = 32 ∨ (Rect.block (s := S100000x512) S10000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x7.size a ≤ S100000x7.size a
  hwx1_3 : ∀ i : grid1.Coords, EltTy.bits .f32 = 32 ∨ (Rect.block (s := S100000x7) S10000x7.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x7.size a ≤ S100000x7.size a
  hwx2_0 : ∀ i : grid2.Coords, EltTy.bits .f32 = 32 ∨ (Rect.block (s := S100000x7) S10000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x7.size a ≤ S1x7.size a
  hwx2_1 : ∀ i : grid2.Coords, EltTy.bits .f32 = 32 ∨ (Rect.block (s := S1x7) S1x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x7.size a ≤ S100000x7.size a
  hwx2_2 : ∀ i : grid2.Coords, EltTy.bits .f32 = 32 ∨ (Rect.block (s := S100000x7) S10000x7.size (cc2_transform_2 i) (hinb2_2 i)).WholeWords (EltTy.packing .f32)

variable [Facts₀]

def dot_S10000x512_S512x16_S10000x16_1_0_0_1_n_n : DotDims S10000x512 S512x16 S10000x16 where
  lhsContracting := [1]
  rhsContracting := [0]
  lhsNonContracting := [0]
  rhsNonContracting := [1]
  lhsBatch := []
  rhsBatch := []
  wf := dot_S10000x512_S512x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S10000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S10000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S10000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000x16 : Shape := ⟨2, ![100000, 16]⟩
abbrev S1x3200000 : Shape := ⟨2, ![1, 3200000]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S100000x7 : Shape := ⟨2, ![100000, 7]⟩
abbrev S3200000x7 : Shape := ⟨2, ![3200000, 7]⟩
abbrev S1x7 : Shape := ⟨2, ![1, 7]⟩
abbrev S100000 : Shape := ⟨1, ![100000]⟩
abbrev S100000x1 : Shape := ⟨2, ![100000, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S100000x16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S3200000x16, .f32⟩
  | .hbm, ⟨23, _⟩ => ⟨S3200000x16, .f32⟩
  | .hbm, ⟨24, _⟩ => ⟨S_, .f32⟩
  | .hbm, ⟨25, _⟩ => ⟨S100000x16, .f32⟩
  | .hbm, ⟨26, _⟩ => ⟨S3200000x1, .i32⟩
  | .hbm, ⟨27, _⟩ => ⟨S100000x16, .f32⟩
  | .hbm, ⟨28, _⟩ => ⟨S1x16, .f32⟩
  | .hbm, ⟨29, _⟩ => ⟨S100000x16, .f32⟩
  | .hbm, ⟨30, _⟩ => ⟨S100000x16, .f32⟩
  | .hbm, ⟨31, _⟩ => ⟨S_, .f32⟩
  | .hbm, ⟨32, _⟩ => ⟨S100000x16, .f32⟩
  | .hbm, ⟨33, _⟩ => ⟨S100000x16, .f32⟩
  | .hbm, ⟨34, _⟩ => ⟨S100000x7, .f32⟩
  | .hbm, ⟨35, _⟩ => ⟨S1x3200000, .i32⟩
  | .hbm, ⟨36, _⟩ => ⟨S3200000, .i32⟩
  | .hbm, ⟨37, _⟩ => ⟨S1x3200000, .i32⟩
  | .hbm, ⟨38, _⟩ => ⟨S3200000, .i32⟩
  | .hbm, ⟨39, _⟩ => ⟨S3200000x1, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x7, .f32⟩
  | .hbm, ⟨49, _⟩ => ⟨S3200000x7, .f32⟩
  | .hbm, ⟨50, _⟩ => ⟨S3200000x7, .f32⟩
  | .hbm, ⟨51, _⟩ => ⟨S_, .f32⟩
  | .hbm, ⟨52, _⟩ => ⟨S100000x7, .f32⟩
  | .hbm, ⟨53, _⟩ => ⟨S3200000x1, .i32⟩
  | .hbm, ⟨54, _⟩ => ⟨S100000x7, .f32⟩
  | .hbm, ⟨55, _⟩ => ⟨S1x7, .f32⟩
  | .hbm, ⟨56, _⟩ => ⟨S100000x7, .f32⟩
  | .hbm, ⟨57, _⟩ => ⟨S100000x7, .f32⟩
  | .hbm, ⟨58, _⟩ => ⟨S_, .f32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x7, .f32⟩
  | .hbm, ⟨65, _⟩ => ⟨S100000x7, .f32⟩
  | .hbm, ⟨66, _⟩ => ⟨S100000x7, .f32⟩
  | .hbm, ⟨67, _⟩ => ⟨S_, .f32⟩
  | .hbm, ⟨68, _⟩ => ⟨S100000, .f32⟩
  | .hbm, ⟨69, _⟩ => ⟨S100000x1, .f32⟩
  | .hbm, ⟨70, _⟩ => ⟨S100000x1, .f32⟩
  | .hbm, ⟨71, _⟩ => ⟨S100000x7, .f32⟩
  | .hbm, ⟨72, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x7_0_1 : S3200000x1.BroadcastsInDim S3200000x7 (![0, 1] : Fin 2 → Fin S3200000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x7_S100000x7_1_0_0_1_n_n_wf : DotDims.WF S100000x16 S16x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.FeatureProduct.lean ====
/-
  The first region: ten row blocks of 10000 rows of the product X · W₁, X : [100000, 512], W₁ : [512, 16].
  Block t of the result array depends on rows 10000·t … 10000·t + 9999 of X and on the whole of W₁; the ten blocks
  tile the array, so after the region the result array is the product, entry (r, q) = Σₖ X (r, k) · W₁ (k, q).
-/
import proofs.«133962_j90288802497036_1_alg».proof.Proof.Gen.KernelIdeal.Frame
import proofs.«133962_j90288802497036_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.FeatureProduct

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature table and the first layer's weights as the region finds them, at their literal types. -/
abbrev feat (c : Dev nD) : Vec Ideal S100000x512 .f32 := V c main_arg0
abbrev wt (c : Dev nD) : Vec Ideal S512x16 .f32 := V c main_arg3

theorem origin : (![0, 0] : Fin 2 → Nat) = fun _ => 0 := funext fun a => by fin_cases a <;> rfl

/-- The block's product at (p, q): the sum over the 512 contracted coordinates. -/
theorem tile_apply (x0 : Vec Ideal S10000x512 .f32) (x1 : Vec Ideal S512x16 .f32) (p : Fin 10000) (q : Fin 16) :
    k0_pay1 (F := Ideal) x0 x1 (ix2 p q) = ∑ k : Fin 512, x0 (ix2 p k) * x1 (ix2 k q) := by
  unfold k0_pay1
  exact Cert.PlainProduct.matmul_zero_apply none x0 x1 p q

/-- Where the three windows' blocks sit at point t: the row blocks of X and of the result at block row t, W₁ whole. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region finds. -/
theorem flushed_eq (c : Dev nD) (t : Fin cfg0.N) :
    (dat0 V c).flushed 2 t
      = ((cfg0.win 2).blk t).view.read (Elt Ideal) (Cert.PlainProduct.prod (φ₁ := .f32) (φ₂ := .f32) (feat V c) (wt V c)) := by
  show (cfg0.win 2).cut (grid0.coords t) ((dat0 V c).after 2 t) = _
  rw [after0_2]
  unfold out0_2
  rw [View.canon_unit_zero origin]
  simp only [View.ld_unit_zero (S := S10000x512) origin, View.ld_unit_zero (S := S512x16) origin]
  obtain ⟨e00, e01, e10, e11, e20, e21⟩ := block_index t
  funext j
  obtain ⟨p, q, rfl⟩ : ∃ (p : Fin 10000) (q : Fin 16), j = ix2 p q := ⟨j 0, j 1, eq_ix2 j⟩
  refine (tile_apply (iblk0 V c 0 t) (iblk0 V c 1 t) p q).trans ?_
  rw [View.read_apply]
  show (∑ k : Fin 512, feat V c (((cfg0.win 0).blk t).view.emb (ix2 p k)) * wt V c (((cfg0.win 1).blk t).view.emb (ix2 k q)))
      = ∑ k : Fin 512, feat V c (ix2 ((((cfg0.win 2).blk t).view.emb (ix2 p q)) 0) k) * wt V c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  exact congrArg₂ (· * ·) (congrArg (feat V c) h0) (congrArg (wt V c) h1)

/-- An index of the result array lies in point t's block iff each coordinate is in the block's range. -/
theorem mem_block (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- Row r of the result array is written by point r / 10000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  refine ⟨⟨(i 0).val / 10000, by show _ < 10; omega⟩, flush0_2 _, ?_⟩
  obtain ⟨-, -, -, -, e20, e21⟩ := block_index ⟨(i 0).val / 10000, by show _ < 10; omega⟩
  rw [mem_block]
  intro a
  match a with
  | ⟨0, _⟩ => show win0_2.index _ (0 : Fin 2) * 10000 ≤ (i 0).val ∧ (i 0).val < win0_2.index _ (0 : Fin 2) * 10000 + 10000; rw [e20]; show (i 0).val / 10000 * 10000 ≤ (i 0).val ∧ (i 0).val < (i 0).val / 10000 * 10000 + 10000; omega
  | ⟨1, _⟩ => show win0_2.index _ (1 : Fin 2) * 16 ≤ (i 1).val ∧ (i 1).val < win0_2.index _ (1 : Fin 2) * 16 + 16; rw [e21]; omega

/-- After the region the result array holds the product of the two arrays the region finds. -/
theorem result (c : Dev nD) :
    (dat0 V c).arrAt 2 cfg0.N = Cert.PlainProduct.prod (φ₁ := .f32) (φ₂ := .f32) (feat V c) (wt V c) :=
  (dat0 V c).arrAt_eq_of_cover 2 _ (fun t _ => flushed_eq V c t) covered

end Cert.KernelIdeal.FeatureProduct

end
-- ==== Proof.Layers.lean ====
/-
  The second layer's input, over the extended reals: for an aggregate A : [n, 16], a bias row β : [1, 16] and weights
  W : [16, 7], entry (p, q) is Σₖ max (A (p, k) + β (0, k)) 0 · W (k, q). It reads row p of A only.
-/
import Idealize.ShloMosaic.Lib.ValueIdx
import Idealize.ShloMosaic.PureOps.Ideal.Laws

noncomputable section

namespace Cert.Gcn

open Idealize.ShloMosaic Idealize.ShloMosaic.ValueIdx

variable {n : ℕ}

/-- Rectify the biased aggregate, then multiply by the weights. -/
def hidden (A : FVec Ideal ⟨2, ![n, 16]⟩ .f32) (β : FVec Ideal ⟨2, ![1, 16]⟩ .f32) (W : FVec Ideal ⟨2, ![16, 7]⟩ .f32) :
    FVec Ideal ⟨2, ![n, 7]⟩ .f32 :=
  fun i => ∑ k : Fin 16, max (A (ix2 (i 0) k) + β (ix2 (0 : Fin 1) k)) 0 * W (ix2 k (i 1))

theorem hidden_apply (A : FVec Ideal ⟨2, ![n, 16]⟩ .f32) (β : FVec Ideal ⟨2, ![1, 16]⟩ .f32) (W : FVec Ideal ⟨2, ![16, 7]⟩ .f32)
    (p : Fin n) (q : Fin 7) :
    hidden A β W (ix2 p q) = ∑ k : Fin 16, max (A (ix2 p k) + β (ix2 (0 : Fin 1) k)) 0 * W (ix2 k q) := rfl

/-- Two aggregates that agree on a row give the same entries along it. -/
theorem hidden_row {n' : ℕ} (A : FVec Ideal ⟨2, ![n, 16]⟩ .f32) (A' : FVec Ideal ⟨2, ![n', 16]⟩ .f32)
    (β : FVec Ideal ⟨2, ![1, 16]⟩ .f32) (W : FVec Ideal ⟨2, ![16, 7]⟩ .f32) (p : Fin n) (p' : Fin n') (q : Fin 7)
    (h : ∀ k, A (ix2 p k) = A' (ix2 p' k)) : hidden A β W (ix2 p q) = hidden A' β W (ix2 p' q) := by
  rw [hidden_apply, hidden_apply]
  exact Finset.sum_congr rfl fun k _ => by rw [h k]

end Cert.Gcn

end
-- ==== Proof.HiddenProduct.lean ====
/-
  The second region: ten row blocks of 10000 rows of max (A + b₁, 0) · W₂, for the aggregate A : [100000, 16] the host
  stretch before it leaves, the bias as a row [1, 16] and W₂ : [16, 7]. Block t reads rows 10000·t … 10000·t + 9999 of A
  and the whole of the bias row and of W₂; the blocks tile the result array.
-/
import proofs.«133962_j90288802497036_1_alg».proof.Proof.Gen.KernelIdeal.Frame
import proofs.«133962_j90288802497036_1_alg».proof.Proof.LibPlainProduct
import proofs.«133962_j90288802497036_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HiddenProduct

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The aggregate, the bias row and the weights as the region finds them, at their literal types. -/
abbrev agg (c : Dev nD) : Vec Ideal S100000x16 .f32 := V c main_v17
abbrev bias (c : Dev nD) : Vec Ideal S1x16 .f32 := V c main_v18
abbrev wt (c : Dev nD) : Vec Ideal S16x7 .f32 := V c main_arg5

theorem origin : (![0, 0] : Fin 2 → Nat) = fun _ => 0 := funext fun a => by fin_cases a <;> rfl

/-- The block's value at (p, q): the rectified biased row p against column q of the weights. -/
theorem tile_apply (x0 : Vec Ideal S10000x16 .f32) (x1 : Vec Ideal S1x16 .f32) (x2 : Vec Ideal S16x7 .f32) (p : Fin 10000) (q : Fin 7) :
    k1_pay1 (F := Ideal) x0 x1 x2 (ix2 p q) = Cert.Gcn.hidden x0 x1 x2 (ix2 p q) := by
  unfold k1_pay1
  refine (Cert.PlainProduct.matmul_zero_apply none _ x2 p q).trans ?_
  rw [Cert.Gcn.hidden_apply]
  refine Finset.sum_congr rfl fun k _ => congrArg (· * x2 (ix2 k q)) ?_
  exact congrArg₂ max
    (congrArg₂ (· + ·) (congrFun (shapeCast_self x0 _) (ix2 p k))
      ((broadcastTo_1b_ab_apply _ _ p k).trans (congrFun (shapeCast_self x1 _) (ix2 (0 : Fin 1) k))))
    Ideal.ofBits_zero_f32

/-- Where the four windows' blocks sit at point t: the row blocks of A and of the result at block row t, the rest whole. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer of the arrays the region finds. -/
theorem flushed_eq (c : Dev nD) (t : Fin cfg1.N) :
    (dat1 V c).flushed 3 t
      = ((cfg1.win 3).blk t).view.read (Elt Ideal) (Cert.Gcn.hidden (agg V c) (bias V c) (wt V c)) := by
  show (cfg1.win 3).cut (grid1.coords t) ((dat1 V c).after 3 t) = _
  rw [after1_3]
  unfold out1_3
  rw [View.canon_unit_zero origin]
  simp only [View.ld_unit_zero (S := S10000x16) origin, View.ld_unit_zero (S := S1x16) origin, View.ld_unit_zero (S := S16x7) origin]
  obtain ⟨e00, e01, e10, e11, e20, e21, e30, e31⟩ := block_index t
  funext j
  obtain ⟨p, q, rfl⟩ : ∃ (p : Fin 10000) (q : Fin 7), j = ix2 p q := ⟨j 0, j 1, eq_ix2 j⟩
  refine (tile_apply (iblk1 V c 0 t) (iblk1 V c 1 t) (iblk1 V c 2 t) p q).trans ?_
  rw [View.read_apply]
  have h1 : iblk1 V c 1 t = bias V c := by
    funext y
    show bias V c (((cfg1.win 1).blk t).view.emb y) = bias V c y
    refine congrArg (bias V c) (funext fun a => Fin.ext ?_)
    match a with
    | ⟨0, _⟩ => show win1_1.index t (0 : Fin 2) * 1 + 1 * (y 0).val = (y 0).val; omega
    | ⟨1, _⟩ => show win1_1.index t (1 : Fin 2) * 16 + 1 * (y 1).val = (y 1).val; omega
  have h2 : iblk1 V c 2 t = wt V c := by
    funext y
    show wt V c (((cfg1.win 2).blk t).view.emb y) = wt V c y
    refine congrArg (wt V c) (funext fun a => Fin.ext ?_)
    match a with
    | ⟨0, _⟩ => show win1_2.index t (0 : Fin 2) * 16 + 1 * (y 0).val = (y 0).val; omega
    | ⟨1, _⟩ => show win1_2.index t (1 : Fin 2) * 7 + 1 * (y 1).val = (y 1).val; omega
  rw [h1, h2]
  have hrow : ((cfg1.win 3).blk t).view.emb (ix2 p q)
      = ix2 (⟨t.val * 10000 + p.val, by have := t.isLt; have : t.val < 10 := this; omega⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 7 + 1 * q.val = q.val; omega
  rw [hrow]
  refine Cert.Gcn.hidden_row _ (agg V c) (bias V c) (wt V c) p _ q fun k => ?_
  show agg V c (((cfg1.win 0).blk t).view.emb (ix2 p k)) = agg V c (ix2 _ k)
  refine congrArg (agg V c) (funext fun a => Fin.ext ?_)
  match a with
  | ⟨0, _⟩ => show win1_0.index t (0 : Fin 2) * 10000 + 1 * p.val = t.val * 10000 + p.val; omega
  | ⟨1, _⟩ => show win1_0.index t (1 : Fin 2) * 16 + 1 * k.val = k.val; omega

/-- An index of the result array lies in point t's block iff each coordinate is in the block's range. -/
theorem mem_block (t : Fin cfg1.N) (i : S100000x7.Idx) :
    i ∈ ((cfg1.win 3).blk t).view.set ↔ ∀ a : Fin 2, win1_3.index t a * S10000x7.size a ≤ (i a).val ∧ (i a).val < win1_3.index t a * S10000x7.size a + S10000x7.size a := by
  show i ∈ ((View.whole main_v19).slice (win1_3.rect t)).set ↔ _
  rw [View.set_slice_whole, Rect.mem_set_unit]
  exact Iff.rfl

/-- Row r of the result array is written by point r / 10000. -/
theorem covered (i : S100000x7.Idx) :
    ∃ t : Fin cfg1.N, (cfg1.win 3).flush t = true ∧ i ∈ ((cfg1.win 3).blk t).view.set := by
  have hi0 : (i 0).val < 100000 := (i 0).isLt
  have hi1 : (i 1).val < 7 := (i 1).isLt
  refine ⟨⟨(i 0).val / 10000, by show _ < 10; omega⟩, flush1_3 _, ?_⟩
  obtain ⟨-, -, -, -, -, -, e30, e31⟩ := block_index ⟨(i 0).val / 10000, by show _ < 10; omega⟩
  rw [mem_block]
  intro a
  match a with
  | ⟨0, _⟩ => show win1_3.index _ (0 : Fin 2) * 10000 ≤ (i 0).val ∧ (i 0).val < win1_3.index _ (0 : Fin 2) * 10000 + 10000; rw [e30]; show (i 0).val / 10000 * 10000 ≤ (i 0).val ∧ (i 0).val < (i 0).val / 10000 * 10000 + 10000; omega
  | ⟨1, _⟩ => show win1_3.index _ (1 : Fin 2) * 7 ≤ (i 1).val ∧ (i 1).val < win1_3.index _ (1 : Fin 2) * 7 + 7; rw [e31]; omega

/-- After the region the result array holds the layer of the three arrays the region finds. -/
theorem result (c : Dev nD) :
    (dat1 V c).arrAt 3 cfg1.N = Cert.Gcn.hidden (agg V c) (bias V c) (wt V c) :=
  (dat1 V c).arrAt_eq_of_cover 3 _ (fun t _ => flushed_eq V c t) covered

end Cert.KernelIdeal.HiddenProduct

end
-- ==== Proof.LibRowSoftmax.lean ====
/-
  The logarithm of a row-wise softmax of a biased table, over the extended reals.
  For X : [a, b] and a bias row β : [1, b], with L (p, k) = X (p, k) + β (0, k) and M p the maximum of row p of L
  (a fold of max from the lowest value), the entry (p, q) is (L (p, q) − M p) − log Σₖ exp (L (p, k) − M p).
  Read at an index: the vector-unit form (a lane maximum and a lane sum kept as columns and spread back along the
  rows) and the host form (reductions over axis 1, the maximum taken once more against the lowest value, the columns
  re-inserted by broadcasts) are both this function. Entry (p, q) depends on row p of X only.
-/
import Idealize.ShloMosaic.Lib.ValueIdx
import Idealize.ShloMosaic.Lib.ValueLayout
import Idealize.ShloMosaic.Lib.Pipeline.Value
import Idealize.ShloMosaic.PureOps.Ideal.Laws
import Mathlib.Data.Finset.Fold

noncomputable section

namespace Cert.RowSoftmax

open Idealize.ShloMosaic Idealize.ShloMosaic.ValueIdx

variable {a b : ℕ}

/-- The lowest value, as the programs spell it: the word of −∞, never evaluated. -/
abbrev lowest : EReal := Ideal.ofBits .f32 0xFF800000#32

/-- The biased entry. -/
def logit (X : FVec Ideal ⟨2, ![a, b]⟩ .f32) (β : FVec Ideal ⟨2, ![1, b]⟩ .f32) (p : Fin a) (k : Fin b) : EReal :=
  X (ix2 p k) + β (ix2 (0 : Fin 1) k)

/-- The maximum of a row of biased entries. -/
def rowMax (X : FVec Ideal ⟨2, ![a, b]⟩ .f32) (β : FVec Ideal ⟨2, ![1, b]⟩ .f32) (p : Fin a) : EReal :=
  (Finset.univ : Finset (Fin b)).fold max lowest (logit X β p)

/-- A biased entry less its row's maximum. -/
def shifted (X : FVec Ideal ⟨2, ![a, b]⟩ .f32) (β : FVec Ideal ⟨2, ![1, b]⟩ .f32) (p : Fin a) (k : Fin b) : EReal :=
  logit X β p k - rowMax X β p

/-- The logarithm of the softmax along each row. -/
def logSoftmax (X : FVec Ideal ⟨2, ![a, b]⟩ .f32) (β : FVec Ideal ⟨2, ![1, b]⟩ .f32) : FVec Ideal ⟨2, ![a, b]⟩ .f32 :=
  fun i => shifted X β (i 0) (i 1) - Ideal.log (∑ k : Fin b, Ideal.exp (shifted X β (i 0) k))

theorem logSoftmax_apply (X : FVec Ideal ⟨2, ![a, b]⟩ .f32) (β : FVec Ideal ⟨2, ![1, b]⟩ .f32) (p : Fin a) (q : Fin b) :
    logSoftmax X β (ix2 p q) = shifted X β p q - Ideal.log (∑ k : Fin b, Ideal.exp (shifted X β p k)) := rfl

/-- Entry (p, q) reads row p only: two tables that agree on a row give the same entries along it. -/
theorem logSoftmax_row {a' : ℕ} (X : FVec Ideal ⟨2, ![a, b]⟩ .f32) (X' : FVec Ideal ⟨2, ![a', b]⟩ .f32)
    (β : FVec Ideal ⟨2, ![1, b]⟩ .f32) (p : Fin a) (p' : Fin a') (q : Fin b) (h : ∀ k, X (ix2 p k) = X' (ix2 p' k)) :
    logSoftmax X β (ix2 p q) = logSoftmax X' β (ix2 p' q) := by
  have hl : logit X β p = logit X' β p' := funext fun k => by unfold logit; rw [h k]
  rw [logSoftmax_apply, logSoftmax_apply]
  unfold shifted rowMax
  rw [hl]

/-! ## The vector-unit form -/

/-- The lane maximum of a tile kept as a column and spread back along the rows: at (p, q), the fold of max over row p. -/
theorem rowMaxSpread_apply (L : FVec Ideal ⟨2, ![a, b]⟩ .f32)
    (hr : Shape.Reduces ⟨2, ![a, b]⟩ [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩)
    (hs : (⟨2, ![a, 1]⟩ : Shape).Broadcasts ⟨2, ![a, b]⟩) (p : Fin a) (q : Fin b) :
    broadcastTo ⟨2, ![a, b]⟩ (shapeCast ⟨2, ![a, 1]⟩ (multiReduction (F := Ideal) .maximumf [1] ⟨1, ![a]⟩ L 0xFF800000#32 hr hφ hacc) hc) hs (ix2 p q)
      = (Finset.univ : Finset (Fin b)).fold max lowest (fun k => L (ix2 p k)) := by
  refine (broadcastTo_apply _ hs (ix2 p q) (ix2 p (0 : Fin 1)) fun ax => ?_).trans ?_
  · match ax with
    | ⟨0, _⟩ =>
      show p.val = if a = 1 then 0 else p.val
      split
      · have := p.isLt; omega
      · rfl
    | ⟨1, _⟩ => rfl
  refine (shapeCast_apply _ hc (ix2 p (0 : Fin 1)) (ix1 p) (by
    rw [Shape.rowMajor_val_two, Shape.rowMajor_val_one]
    show p.val = p.val * 1 + 0
    omega)).trans ?_
  refine (Ideal.multiReduction_maximumf_single L 0xFF800000#32 hr hφ hacc (ix1 p)).trans ?_
  exact Finset.fold_congr fun k _ => congrArg L (funext fun ax => Fin.ext (by
    match ax with
    | ⟨0, _⟩ => rfl
    | ⟨1, _⟩ => rfl))

/-- The lane sum of a tile kept as a column: at (p, 0), the sum over row p. -/
theorem rowSumCol_apply (E : FVec Ideal ⟨2, ![a, b]⟩ .f32)
    (hr : Shape.Reduces ⟨2, ![a, b]⟩ [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) :
    shapeCast ⟨2, ![a, 1]⟩ (multiReduction (F := Ideal) .add [1] ⟨1, ![a]⟩ E 0x00000000#32 hr hφ hacc) hc (ix2 p (0 : Fin 1))
      = ∑ k : Fin b, E (ix2 p k) := by
  refine (shapeCast_apply _ hc (ix2 p (0 : Fin 1)) (ix1 p) (by
    rw [Shape.rowMajor_val_two, Shape.rowMajor_val_one]
    show p.val = p.val * 1 + 0
    omega)).trans ?_
  refine (Ideal.multiReduction_add_single E 0x00000000#32 hr hφ hacc (ix1 p)).trans ?_
  exact Finset.sum_congr rfl fun k _ => congrArg E (funext fun ax => Fin.ext (by
    match ax with
    | ⟨0, _⟩ => rfl
    | ⟨1, _⟩ => rfl))

/-- A column spread along the rows reads the column. -/
theorem spread_apply {α : Type} (v : (⟨2, ![a, 1]⟩ : Shape).Idx → α)
    (hs : (⟨2, ![a, 1]⟩ : Shape).Broadcasts ⟨2, ![a, b]⟩) (p : Fin a) (q : Fin b) :
    broadcastTo ⟨2, ![a, b]⟩ v hs (ix2 p q) = v (ix2 p (0 : Fin 1)) := by
  refine broadcastTo_apply v hs (ix2 p q) (ix2 p (0 : Fin 1)) fun ax => ?_
  match ax with
  | ⟨0, _⟩ =>
    show p.val = if a = 1 then 0 else p.val
    split
    · have := p.isLt; omega
    · rfl
  | ⟨1, _⟩ => rfl

/-- The vector-unit computation, entry by entry, is the function above. -/
theorem tile_apply (X : FVec Ideal ⟨2, ![a, b]⟩ .f32) (β : FVec Ideal ⟨2, ![1, b]⟩ .f32)
    (hx : (⟨2, ![a, b]⟩ : Shape).ShapeCasts ⟨2, ![a, b]⟩) (hb : (⟨2, ![1, b]⟩ : Shape).ShapeCasts ⟨2, ![1, b]⟩)
    (hbb : (⟨2, ![1, b]⟩ : Shape).Broadcasts ⟨2, ![a, b]⟩)
    (hr : Shape.Reduces ⟨2, ![a, b]⟩ [1] ⟨1, ![a]⟩) (hφ hφ' : FKind.Formats .f32)
    (hmax : (0xFF800000#32 : BitVec 32) = FKind.maximumf.neutral .f32 hφ)
    (hadd : (0x00000000#32 : BitVec 32) = FKind.add.neutral .f32 hφ')
    (hc : (⟨1, ![a]⟩ : Shape).ShapeCasts ⟨2, ![a, 1]⟩)
    (hs : (⟨2, ![a, 1]⟩ : Shape).Broadcasts ⟨2, ![a, b]⟩) (p : Fin a) (q : Fin b) :
    (have L : FVec Ideal ⟨2, ![a, b]⟩ .f32 := addf (shapeCast ⟨2, ![a, b]⟩ X hx) (broadcastTo ⟨2, ![a, b]⟩ (shapeCast ⟨2, ![1, b]⟩ β hb) hbb)
     have S : FVec Ideal ⟨2, ![a, b]⟩ .f32 := subf L (broadcastTo ⟨2, ![a, b]⟩ (shapeCast ⟨2, ![a, 1]⟩ (multiReduction (F := Ideal) .maximumf [1] ⟨1, ![a]⟩ L 0xFF800000#32 hr hφ hmax) hc) hs)
     subf S (broadcastTo ⟨2, ![a, b]⟩ (log (shapeCast ⟨2, ![a, 1]⟩ (multiReduction (F := Ideal) .add [1] ⟨1, ![a]⟩ (exp S) 0x00000000#32 hr hφ' hadd) hc)) hs)) (ix2 p q)
      = logSoftmax X β (ix2 p q) := by
  have hL : ∀ k : Fin b, addf (shapeCast ⟨2, ![a, b]⟩ X hx) (broadcastTo ⟨2, ![a, b]⟩ (shapeCast ⟨2, ![1, b]⟩ β hb) hbb) (ix2 p k) = logit X β p k :=
    fun k => congrArg₂ (· + ·) (congrFun (shapeCast_self X hx) (ix2 p k))
      ((broadcastTo_1b_ab_apply _ hbb p k).trans (congrFun (shapeCast_self β hb) (ix2 (0 : Fin 1) k)))
  have hM : ∀ k : Fin b, broadcastTo ⟨2, ![a, b]⟩ (shapeCast ⟨2, ![a, 1]⟩ (multiReduction (F := Ideal) .maximumf [1] ⟨1, ![a]⟩
      (addf (shapeCast ⟨2, ![a, b]⟩ X hx) (broadcastTo ⟨2, ![a, b]⟩ (shapeCast ⟨2, ![1, b]⟩ β hb) hbb)) 0xFF800000#32 hr hφ hmax) hc) hs (ix2 p k) = rowMax X β p :=
    fun k => (rowMaxSpread_apply _ hr hφ hmax hc hs p k).trans (Finset.fold_congr fun j _ => hL j)
  have hS : ∀ k : Fin b, subf (addf (shapeCast ⟨2, ![a, b]⟩ X hx) (broadcastTo ⟨2, ![a, b]⟩ (shapeCast ⟨2, ![1, b]⟩ β hb) hbb))
      (broadcastTo ⟨2, ![a, b]⟩ (shapeCast ⟨2, ![a, 1]⟩ (multiReduction (F := Ideal) .maximumf [1] ⟨1, ![a]⟩
        (addf (shapeCast ⟨2, ![a, b]⟩ X hx) (broadcastTo ⟨2, ![a, b]⟩ (shapeCast ⟨2, ![1, b]⟩ β hb) hbb)) 0xFF800000#32 hr hφ hmax) hc) hs) (ix2 p k)
        = shifted X β p k :=
    fun k => congrArg₂ (· - ·) (hL k) (hM k)
  rw [logSoftmax_apply]
  refine congrArg₂ (· - ·) (hS q) ?_
  refine (spread_apply _ hs p q).trans ?_
  refine congrArg Ideal.log ?_
  refine (rowSumCol_apply _ hr hφ' hadd hc p).trans ?_
  exact Finset.sum_congr rfl fun k _ => congrArg Ideal.exp (hS k)

/-! ## The host form -/

/-- The host's maximum over axis 1 of a table, at p: the fold of max over row p from the initial value. -/
theorem hostRowMax_apply (L : FVec Ideal ⟨2, ![a, b]⟩ .f32) (init : (⟨0, ![]⟩ : Shape).Idx → EReal)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf L init h' hu (ix1 p)
      = (Finset.univ : Finset (Fin b)).fold max (init (Shape.Idx.first hu)) (fun k => L (ix2 p k)) := by
  refine (Host.reduce_eq_fold_single FloatOps.maximumf L init h' h hu (ix1 p)).trans ?_
  exact Finset.fold_congr fun k _ => congrArg L (funext fun ax => Fin.ext (by
    match ax with
    | ⟨0, _⟩ => rfl
    | ⟨1, _⟩ => rfl))

/-- A maximum of a value with a fold of max that starts at that value is the fold. -/
theorem max_fold_self (c : EReal) (f : Fin b → EReal) :
    max c ((Finset.univ : Finset (Fin b)).fold max c f) = (Finset.univ : Finset (Fin b)).fold max c f :=
  max_eq_right ((Finset.le_fold_max c).mpr (Or.inl le_rfl))

end Cert.RowSoftmax

end
-- ==== Proof.ClassScores.lean ====
/-
  The third region: ten row blocks of 10000 rows of the logarithm of the row-wise softmax of A + b₂, for the aggregate
  A : [100000, 7] the host stretch before it leaves and the bias as a row [1, 7]. Block t reads rows
  10000·t … 10000·t + 9999 of A and the whole bias row; an entry depends on its own row only, and the blocks tile the
  result array.
-/
import proofs.«133962_j90288802497036_1_alg».proof.Proof.Gen.KernelIdeal.Frame
import proofs.«133962_j90288802497036_1_alg».proof.Proof.LibRowSoftmax
import Idealize.ShloMosaic.Lib.Pipeline.Value
import Idealize.ShloMosaic.Lib.ValueIdx
import Idealize.ShloMosaic.PureOps.Ideal.Laws

set_option maxRecDepth 16384

noncomputable section

namespace Cert.KernelIdeal.ClassScores

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The aggregate and the bias row as the region finds them, at their literal types. -/
abbrev agg (c : Dev nD) : Vec Ideal S100000x7 .f32 := V c main_v36
abbrev bias (c : Dev nD) : Vec Ideal S1x7 .f32 := V c main_v37

theorem origin : (![0, 0] : Fin 2 → Nat) = fun _ => 0 := funext fun a => by fin_cases a <;> rfl

/-- The block's value at (p, q): the log-softmax of the biased row p, at q. -/
theorem tile_apply (x0 : Vec Ideal S10000x7 .f32) (x1 : Vec Ideal S1x7 .f32) (p : Fin 10000) (q : Fin 7) :
    k2_pay1 (F := Ideal) x0 x1 (ix2 p q) = Cert.RowSoftmax.logSoftmax x0 x1 (ix2 p q) := by
  unfold k2_pay1
  exact Cert.RowSoftmax.tile_apply x0 x1 _ _ _ _ _ _ _ _ _ _ p q

/-- Where the three windows' blocks sit at point t: the row blocks of A and of the result at block row t, the bias whole. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the log-softmax of the arrays the region finds. -/
theorem flushed_eq (c : Dev nD) (t : Fin cfg2.N) :
    (dat2 V c).flushed 2 t
      = ((cfg2.win 2).blk t).view.read (Elt Ideal) (Cert.RowSoftmax.logSoftmax (agg V c) (bias V c)) := by
  show (cfg2.win 2).cut (grid2.coords t) ((dat2 V c).after 2 t) = _
  rw [after2_2]
  unfold out2_2
  rw [View.canon_unit_zero origin]
  simp only [View.ld_unit_zero (S := S10000x7) origin, View.ld_unit_zero (S := S1x7) origin]
  obtain ⟨e00, e01, e10, e11, e20, e21⟩ := block_index t
  funext j
  obtain ⟨p, q, rfl⟩ : ∃ (p : Fin 10000) (q : Fin 7), j = ix2 p q := ⟨j 0, j 1, eq_ix2 j⟩
  refine (tile_apply (iblk2 V c 0 t) (iblk2 V c 1 t) p q).trans ?_
  rw [View.read_apply]
  have h1 : iblk2 V c 1 t = bias V c := by
    funext y
    show bias V c (((cfg2.win 1).blk t).view.emb y) = bias V c y
    refine congrArg (bias V c) (funext fun a => Fin.ext ?_)
    match a with
    | ⟨0, _⟩ => show win2_1.index t (0 : Fin 2) * 1 + 1 * (y 0).val = (y 0).val; omega
    | ⟨1, _⟩ => show win2_1.index t (1 : Fin 2) * 7 + 1 * (y 1).val = (y 1).val; omega
  rw [h1]
  have hrow : ((cfg2.win 2).blk t).view.emb (ix2 p q)
      = ix2 (⟨t.val * 10000 + p.val, by have := t.isLt; have : t.val < 10 := this; omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 7 + 1 * q.val = q.val; omega
  rw [hrow]
  refine Cert.RowSoftmax.logSoftmax_row _ (agg V c) (bias V c) p _ q fun k => ?_
  show agg V c (((cfg2.win 0).blk t).view.emb (ix2 p k)) = agg V c (ix2 _ k)
  refine congrArg (agg V c) (funext fun a => Fin.ext ?_)
  match a with
  | ⟨0, _⟩ => show win2_0.index t (0 : Fin 2) * 10000 + 1 * p.val = t.val * 10000 + p.val; omega
  | ⟨1, _⟩ => show win2_0.index t (1 : Fin 2) * 7 + 1 * k.val = k.val; omega

/-- An index of the result array lies in point t's block iff each coordinate is in the block's range. -/
theorem mem_block (t : Fin cfg2.N) (i : S100000x7.Idx) :
    i ∈ ((cfg2.win 2).blk t).view.set ↔ ∀ a : Fin 2, win2_2.index t a * S10000x7.size a ≤ (i a).val ∧ (i a).val < win2_2.index t a * S10000x7.size a + S10000x7.size a := by
  show i ∈ ((View.whole main_v38).slice (win2_2.rect t)).set ↔ _
  rw [View.set_slice_whole, Rect.mem_set_unit]
  exact Iff.rfl

/-- Row r of the result array is written by point r / 10000. -/
theorem covered (i : S100000x7.Idx) :
    ∃ t : Fin cfg2.N, (cfg2.win 2).flush t = true ∧ i ∈ ((cfg2.win 2).blk t).view.set := by
  have hi0 : (i 0).val < 100000 := (i 0).isLt
  have hi1 : (i 1).val < 7 := (i 1).isLt
  refine ⟨⟨(i 0).val / 10000, by show _ < 10; omega⟩, flush2_2 _, ?_⟩
  obtain ⟨-, -, -, -, e20, e21⟩ := block_index ⟨(i 0).val / 10000, by show _ < 10; omega⟩
  rw [mem_block]
  intro a
  match a with
  | ⟨0, _⟩ => show win2_2.index _ (0 : Fin 2) * 10000 ≤ (i 0).val ∧ (i 0).val < win2_2.index _ (0 : Fin 2) * 10000 + 10000; rw [e20]; show (i 0).val / 10000 * 10000 ≤ (i 0).val ∧ (i 0).val < (i 0).val / 10000 * 10000 + 10000; omega
  | ⟨1, _⟩ => show win2_2.index _ (1 : Fin 2) * 7 ≤ (i 1).val ∧ (i 1).val < win2_2.index _ (1 : Fin 2) * 7 + 7; rw [e21]; omega

/-- After the region the result array holds the log-softmax of the two arrays the region finds. -/
theorem result (c : Dev nD) :
    (dat2 V c).arrAt 2 cfg2.N = Cert.RowSoftmax.logSoftmax (agg V c) (bias V c) :=
  (dat2 V c).arrAt_eq_of_cover 2 _ (fun t _ => flushed_eq V c t) covered

end Cert.KernelIdeal.ClassScores

end
-- ==== Proof.Aggregate.lean ====
/-
  The graph aggregation both programs share. Each layer multiplies the gathered source rows by the edge weights and
  sums them into the destination rows; the kernel's program and the reference run the same host operations for it, so
  the certificate names the composition once, for each of the two widths, and compares only what goes into it.
-/
import proofs.«133962_j90288802497036_1_alg».proof.Proof.Gen.KernelIdeal

noncomputable section

namespace Cert.KernelIdeal.Aggregate

open Cert.KernelIdeal Cert.KernelIdeal.Gen Idealize.ShloMosaic

variable {F : FTy → Type} [FloatOps F]

/-- The sparse aggregation of a feature table h : [100000, 16] along the edges: row dst(e) of the result gathers
    weight(e) · h (src(e), ·) over the edges e — the host operations of one `spmm`, composed; a negative source index is
    first moved up by the row count, the gather clamps and the scatter drops as the operations say. Never opened: both
    programs apply this one function. -/
def agg16 (ei : (⟨S2x3200000, .i32⟩ : BufTy).Contents (Elt F)) (ew : (⟨S3200000, .f32⟩ : BufTy).Contents (Elt F))
    (h : (⟨S100000x16, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 (shapeCast _ (extractStridedSlice S1x3200000 ![1, 0] ei slices_S2x3200000_S1x3200000_1_0) shapeCasts_S1x3200000_S3200000))
    (mulf (broadcastInDim S3200000x16 ![0, 1] bcast_S3200000x1_S3200000x16_0_1 (broadcastInDim S3200000x1 ![0] bcast_S3200000_S3200000x1_0 ew))
      (Host.gather gather_S100000x16_S3200000x1_S3200000x16_1_0_n_n_0_1_116 h
        (broadcastInDim S3200000x1 ![0] bcast_S3200000_S3200000x1_0
          (select (cmpi .slt (shapeCast _ (extractStridedSlice S1x3200000 ![0, 0] ei slices_S2x3200000_S1x3200000_0_0) shapeCasts_S1x3200000_S3200000) (broadcastInDim S3200000 ![] bcast_S_S3200000 (constantI S_ 32 0#32)))
            (addi (shapeCast _ (extractStridedSlice S1x3200000 ![0, 0] ei slices_S2x3200000_S1x3200000_0_0) shapeCasts_S1x3200000_S3200000) (broadcastInDim S3200000 ![] bcast_S_S3200000 (constantI S_ 32 100000#32)))
            (shapeCast _ (extractStridedSlice S1x3200000 ![0, 0] ei slices_S2x3200000_S1x3200000_0_0) shapeCasts_S1x3200000_S3200000)))))

/-- The sparse aggregation of a feature table h : [100000, 7] along the edges: row dst(e) of the result gathers
    weight(e) · h (src(e), ·) over the edges e — the host operations of one `spmm`, composed; a negative source index is
    first moved up by the row count, the gather clamps and the scatter drops as the operations say. Never opened: both
    programs apply this one function. -/
def agg7 (ei : (⟨S2x3200000, .i32⟩ : BufTy).Contents (Elt F)) (ew : (⟨S3200000, .f32⟩ : BufTy).Contents (Elt F))
    (h : (⟨S100000x7, .f32⟩ : BufTy).Contents (Elt F)) : (⟨S100000x7, .f32⟩ : BufTy).Contents (Elt F) :=
  Host.scatterAdd scatter_S100000x7_S3200000x1_S3200000x7_1_0_0_1
    (broadcastInDim S100000x7 ![] bcast_S_S100000x7 (constant S_ .f32 0x00000000#32))
    (broadcastInDim S3200000x1 ![0] bcast_S3200000_S3200000x1_0 (shapeCast _ (extractStridedSlice S1x3200000 ![1, 0] ei slices_S2x3200000_S1x3200000_1_0) shapeCasts_S1x3200000_S3200000))
    (mulf (broadcastInDim S3200000x7 ![0, 1] bcast_S3200000x1_S3200000x7_0_1 (broadcastInDim S3200000x1 ![0] bcast_S3200000_S3200000x1_0 ew))
      (Host.gather gather_S100000x7_S3200000x1_S3200000x7_1_0_n_n_0_1_17 h
        (broadcastInDim S3200000x1 ![0] bcast_S3200000_S3200000x1_0
          (select (cmpi .slt (shapeCast _ (extractStridedSlice S1x3200000 ![0, 0] ei slices_S2x3200000_S1x3200000_0_0) shapeCasts_S1x3200000_S3200000) (broadcastInDim S3200000 ![] bcast_S_S3200000 (constantI S_ 32 0#32)))
            (addi (shapeCast _ (extractStridedSlice S1x3200000 ![0, 0] ei slices_S2x3200000_S1x3200000_0_0) shapeCasts_S1x3200000_S3200000) (broadcastInDim S3200000 ![] bcast_S_S3200000 (constantI S_ 32 100000#32)))
            (shapeCast _ (extractStridedSlice S1x3200000 ![0, 0] ei slices_S2x3200000_S1x3200000_0_0) shapeCasts_S1x3200000_S3200000)))))

end Cert.KernelIdeal.Aggregate

end
-- ==== Proof.Network.lean ====
/-
  The two-layer graph network as one function of its seven arguments, over the extended reals:
  log-softmax ∘ (+ b₂) ∘ aggregate ∘ (· W₂) ∘ rectify ∘ (+ b₁) ∘ aggregate ∘ (X · W₁),
  the two aggregations being the host chain both programs share (never opened), the biases entering as rows.
-/
import proofs.«133962_j90288802497036_1_alg».proof.Proof.Aggregate
import proofs.«133962_j90288802497036_1_alg».proof.Proof.Layers
import proofs.«133962_j90288802497036_1_alg».proof.Proof.LibPlainProduct
import proofs.«133962_j90288802497036_1_alg».proof.Proof.LibRowSoftmax

noncomputable section

namespace Cert.KernelIdeal.Result

open Cert.KernelIdeal Cert.KernelIdeal.Gen Cert.KernelIdeal.Aggregate Idealize.ShloMosaic

/-- The network of the launch arguments. -/
def network (x : (⟨S100000x512, .f32⟩ : BufTy).Contents (Elt Ideal)) (ei : (⟨S2x3200000, .i32⟩ : BufTy).Contents (Elt Ideal))
    (ew : (⟨S3200000, .f32⟩ : BufTy).Contents (Elt Ideal)) (w1 : (⟨S512x16, .f32⟩ : BufTy).Contents (Elt Ideal))
    (b1 : (⟨S16, .f32⟩ : BufTy).Contents (Elt Ideal)) (w2 : (⟨S16x7, .f32⟩ : BufTy).Contents (Elt Ideal))
    (b2 : (⟨S7, .f32⟩ : BufTy).Contents (Elt Ideal)) : (⟨S100000x7, .f32⟩ : BufTy).Contents (Elt Ideal) :=
  Cert.RowSoftmax.logSoftmax
    (agg7 ei ew (Cert.Gcn.hidden (agg16 ei ew (Cert.PlainProduct.prod (φ₁ := .f32) (φ₂ := .f32) x w1)) (shapeCast S1x16 b1 shapeCasts_S16_S1x16) w2))
    (shapeCast S1x7 b2 shapeCasts_S7_S1x7)

end Cert.KernelIdeal.Result

end
-- ==== Proof.KernelValue.lean ====
/-
  What the kernel's program leaves in its result array. Walking the boundaries of @main back from the return: the third
  region leaves the log-softmax of the second aggregate and the bias row; the host stretch before it aggregates the second
  region's result along the edges; the second region leaves the rectified biased first aggregate times W₂; the host stretch
  before it aggregates the first region's result; the first region leaves X · W₁. The edge list, the edge weights and the
  parameters are written by nothing on the way, so every stage reads them as launched.
-/
import proofs.«133962_j90288802497036_1_alg».proof.Proof.Gen.KernelIdeal.Frame
import proofs.«133962_j90288802497036_1_alg».proof.Proof.FeatureProduct
import proofs.«133962_j90288802497036_1_alg».proof.Proof.HiddenProduct
import proofs.«133962_j90288802497036_1_alg».proof.Proof.ClassScores
import proofs.«133962_j90288802497036_1_alg».proof.Proof.Aggregate
import proofs.«133962_j90288802497036_1_alg».proof.Proof.Network
import Idealize.ShloMosaic.Lib.StableHlo.Run

set_option maxRecDepth 16384

noncomputable section

namespace Cert.KernelIdeal.Result

open Cert.KernelIdeal Cert.KernelIdeal.Gen Cert.KernelIdeal.Aggregate
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer no operation of a host stretch writes holds after it what it held before. -/
local macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## After the first region -/

theorem first_product (c : Dev nD) :
    W1 m ρ c (Proc.devRef .tc main_v0)
      = Cert.PlainProduct.prod (φ₁ := .f32) (φ₂ := .f32) (m ((c : Thread nD τ).loc main_arg0)) (m ((c : Thread nD τ).loc main_arg3)) :=
  (W1_arr m ρ c 2).trans (FeatureProduct.result (V0 m ρ) c)

theorem W1_edges (c : Dev nD) : W1 m ρ c (Proc.devRef .tc main_arg1) = m ((c : Thread nD τ).loc main_arg1) := W1_of_ne m ρ c main_arg1 (by decide)
theorem W1_weights (c : Dev nD) : W1 m ρ c (Proc.devRef .tc main_arg2) = m ((c : Thread nD τ).loc main_arg2) := W1_of_ne m ρ c main_arg2 (by decide)
theorem W1_bias1 (c : Dev nD) : W1 m ρ c (Proc.devRef .tc main_arg4) = m ((c : Thread nD τ).loc main_arg4) := W1_of_ne m ρ c main_arg4 (by decide)
theorem W1_w2 (c : Dev nD) : W1 m ρ c (Proc.devRef .tc main_arg5) = m ((c : Thread nD τ).loc main_arg5) := W1_of_ne m ρ c main_arg5 (by decide)
theorem W1_bias2 (c : Dev nD) : W1 m ρ c (Proc.devRef .tc main_arg6) = m ((c : Thread nD τ).loc main_arg6) := W1_of_ne m ρ c main_arg6 (by decide)

/-! ## After the first host stretch -/

set_option maxHeartbeats 4000000 in
theorem first_aggregate (c : Dev nD) :
    W2 m ρ c (Proc.devRef .tc main_v17)
      = agg16 (W1 m ρ c (Proc.devRef .tc main_arg1)) (W1 m ρ c (Proc.devRef .tc main_arg2)) (W1 m ρ c (Proc.devRef .tc main_v0)) := by
  show StableHlo.after hostOps1 (W1 m ρ c) (Proc.devRef .tc main_v17) = _
  dsimp only [hostOps1]
  after_results
  rfl

theorem first_bias_row (c : Dev nD) :
    W2 m ρ c (Proc.devRef .tc main_v18) = shapeCast S1x16 (W1 m ρ c (Proc.devRef .tc main_arg4)) shapeCasts_S16_S1x16 := by
  show StableHlo.after hostOps1 (W1 m ρ c) (Proc.devRef .tc main_v18) = _
  dsimp only [hostOps1]
  after_results
  rfl

theorem W2_edges (c : Dev nD) : W2 m ρ c (Proc.devRef .tc main_arg1) = W1 m ρ c (Proc.devRef .tc main_arg1) := by unwritten hostOps1
theorem W2_weights (c : Dev nD) : W2 m ρ c (Proc.devRef .tc main_arg2) = W1 m ρ c (Proc.devRef .tc main_arg2) := by unwritten hostOps1
theorem W2_w2 (c : Dev nD) : W2 m ρ c (Proc.devRef .tc main_arg5) = W1 m ρ c (Proc.devRef .tc main_arg5) := by unwritten hostOps1
theorem W2_bias2 (c : Dev nD) : W2 m ρ c (Proc.devRef .tc main_arg6) = W1 m ρ c (Proc.devRef .tc main_arg6) := by unwritten hostOps1

/-! ## After the second region -/

theorem second_product (c : Dev nD) :
    W3 m ρ c (Proc.devRef .tc main_v19)
      = Cert.Gcn.hidden (HiddenProduct.agg (V2 m ρ) c) (HiddenProduct.bias (V2 m ρ) c) (HiddenProduct.wt (V2 m ρ) c) :=
  (W3_arr m ρ c 3).trans (HiddenProduct.result (V2 m ρ) c)

theorem W3_edges (c : Dev nD) : W3 m ρ c (Proc.devRef .tc main_arg1) = W2 m ρ c (Proc.devRef .tc main_arg1) := W3_of_ne m ρ c main_arg1 (by decide)
theorem W3_weights (c : Dev nD) : W3 m ρ c (Proc.devRef .tc main_arg2) = W2 m ρ c (Proc.devRef .tc main_arg2) := W3_of_ne m ρ c main_arg2 (by decide)
theorem W3_bias2 (c : Dev nD) : W3 m ρ c (Proc.devRef .tc main_arg6) = W2 m ρ c (Proc.devRef .tc main_arg6) := W3_of_ne m ρ c main_arg6 (by decide)

/-! ## After the second host stretch -/

set_option maxHeartbeats 4000000 in
theorem second_aggregate (c : Dev nD) :
    W4 m ρ c (Proc.devRef .tc main_v36)
      = agg7 (W3 m ρ c (Proc.devRef .tc main_arg1)) (W3 m ρ c (Proc.devRef .tc main_arg2)) (W3 m ρ c (Proc.devRef .tc main_v19)) := by
  show StableHlo.after hostOps2 (W3 m ρ c) (Proc.devRef .tc main_v36) = _
  dsimp only [hostOps2]
  after_results
  rfl

theorem second_bias_row (c : Dev nD) :
    W4 m ρ c (Proc.devRef .tc main_v37) = shapeCast S1x7 (W3 m ρ c (Proc.devRef .tc main_arg6)) shapeCasts_S7_S1x7 := by
  show StableHlo.after hostOps2 (W3 m ρ c) (Proc.devRef .tc main_v37) = _
  dsimp only [hostOps2]
  after_results
  rfl

/-! ## After the third region: the result -/

theorem third_result (c : Dev nD) :
    W5 m ρ c (Proc.devRef .tc main_v38)
      = Cert.RowSoftmax.logSoftmax (ClassScores.agg (V4 m ρ) c) (ClassScores.bias (V4 m ρ) c) :=
  (W5_arr m ρ c 2).trans (ClassScores.result (V4 m ρ) c)

/-- The result array at the return holds the network of the launch arguments. -/
theorem result (c : Dev nD) :
    W5 m ρ c (Proc.devRef .tc main_v38)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have hA1 : HiddenProduct.agg (V2 m ρ) c
      = agg16 (m ((c : Thread nD τ).loc main_arg1)) (m ((c : Thread nD τ).loc main_arg2))
          (Cert.PlainProduct.prod (φ₁ := .f32) (φ₂ := .f32) (m ((c : Thread nD τ).loc main_arg0)) (m ((c : Thread nD τ).loc main_arg3))) := by
    refine (first_aggregate m ρ c).trans ?_
    rw [W1_edges, W1_weights, first_product]
  have hB1 : HiddenProduct.bias (V2 m ρ) c = shapeCast S1x16 (m ((c : Thread nD τ).loc main_arg4)) shapeCasts_S16_S1x16 := by
    refine (first_bias_row m ρ c).trans ?_
    rw [W1_bias1]
  have hW2 : HiddenProduct.wt (V2 m ρ) c = m ((c : Thread nD τ).loc main_arg5) := (W2_w2 m ρ c).trans (W1_w2 m ρ c)
  have hH : W3 m ρ c (Proc.devRef .tc main_v19)
      = Cert.Gcn.hidden (agg16 (m ((c : Thread nD τ).loc main_arg1)) (m ((c : Thread nD τ).loc main_arg2))
          (Cert.PlainProduct.prod (φ₁ := .f32) (φ₂ := .f32) (m ((c : Thread nD τ).loc main_arg0)) (m ((c : Thread nD τ).loc main_arg3))))
          (shapeCast S1x16 (m ((c : Thread nD τ).loc main_arg4)) shapeCasts_S16_S1x16) (m ((c : Thread nD τ).loc main_arg5)) := by
    refine (second_product m ρ c).trans ?_
    rw [hA1, hB1, hW2]
  have hA2 : ClassScores.agg (V4 m ρ) c
      = agg7 (m ((c : Thread nD τ).loc main_arg1)) (m ((c : Thread nD τ).loc main_arg2)) (W3 m ρ c (Proc.devRef .tc main_v19)) := by
    refine (second_aggregate m ρ c).trans ?_
    rw [W3_edges, W3_weights, W2_edges, W2_weights, W1_edges, W1_weights]
  have hB2 : ClassScores.bias (V4 m ρ) c = shapeCast S1x7 (m ((c : Thread nD τ).loc main_arg6)) shapeCasts_S7_S1x7 := by
    refine (second_bias_row m ρ c).trans ?_
    rw [W3_bias2, W2_bias2, W1_bias2]
  refine (third_result m ρ c).trans ?_
  rw [hA2, hB2, hH]
  rfl

end Cert.KernelIdeal.Result

end
-- ==== Proof.RefValue.lean ====
/-
  What the reference leaves in its result array, as the same function of the arguments as the kernel's program.
  Stage by stage over the reference's run: its first product is X · W₁; its first aggregate is the shared aggregation of
  that; its second product, taken after adding the bias (spread down the rows) and rectifying, is the second layer's input;
  its second aggregate is the shared aggregation again; and its log_softmax — a maximum over axis 1 taken once more
  against the lowest value, the shifted entries, the logarithm of the sum of their exponentials — is the row-wise
  log-softmax of the biased table. A maximum of the lowest value with a fold of max that starts at it is that fold.
-/
import proofs.«133962_j90288802497036_1_alg».proof.Proof.RefRead
import proofs.«133962_j90288802497036_1_alg».proof.Proof.Network
import Idealize.ShloMosaic.Lib.ValueIdx
import Idealize.ShloMosaic.Lib.ValueLayout
import Idealize.ShloMosaic.PureOps.Ideal.Laws
import Mathlib.Data.Finset.Fold

set_option maxRecDepth 16384

noncomputable section

namespace Cert.ReferenceIdeal.RefValue

open Cert.ReferenceIdeal Cert.ReferenceIdeal.Gen Cert.ReferenceIdeal.ReadP
open Idealize.ShloMosaic Idealize.ShloMosaic.ValueIdx

/-! ## The two aggregations: the shared host chain, at any float family -/

section Chain
variable {F : FTy → Type} [FloatOps F]
variable (x0 : (⟨S100000x512, .f32⟩ : BufTy).Contents (Elt F)) (x1 : (⟨S2x3200000, .i32⟩ : BufTy).Contents (Elt F))
  (x2 : (⟨S3200000, .f32⟩ : BufTy).Contents (Elt F)) (x3 : (⟨S512x16, .f32⟩ : BufTy).Contents (Elt F))
  (x4 : (⟨S16, .f32⟩ : BufTy).Contents (Elt F)) (x5 : (⟨S16x7, .f32⟩ : BufTy).Contents (Elt F))

theorem first_aggregate :
    val_main_v17 (F := F) x0 x1 x2 x3 = Cert.KernelIdeal.Aggregate.agg16 (F := F) x1 x2 (val_main_v0 (F := F) x0 x3) := rfl

theorem second_aggregate :
    val_main_v39 (F := F) x0 x1 x2 x3 x4 x5 = Cert.KernelIdeal.Aggregate.agg7 (F := F) x1 x2 (val_main_v22 (F := F) x0 x1 x2 x3 x4 x5) := rfl

end Chain

/-! ## The dense stages, over the extended reals -/

variable (x0 : (⟨S100000x512, .f32⟩ : BufTy).Contents (Elt Ideal)) (x1 : (⟨S2x3200000, .i32⟩ : BufTy).Contents (Elt Ideal))
  (x2 : (⟨S3200000, .f32⟩ : BufTy).Contents (Elt Ideal)) (x3 : (⟨S512x16, .f32⟩ : BufTy).Contents (Elt Ideal))
  (x4 : (⟨S16, .f32⟩ : BufTy).Contents (Elt Ideal)) (x5 : (⟨S16x7, .f32⟩ : BufTy).Contents (Elt Ideal))
  (x6 : (⟨S7, .f32⟩ : BufTy).Contents (Elt Ideal))

/-- The first product. -/
theorem first_product : val_main_v0 (F := Ideal) x0 x3 = Cert.PlainProduct.prod (φ₁ := .f32) (φ₂ := .f32) x0 x3 := by
  unfold val_main_v0
  exact Cert.PlainProduct.dotGeneral_eq_prod none x0 x3

/-- A bias vector as a row reads, at (0, k), the vector at k. -/
theorem row_apply {d : ℕ} (v : (⟨1, ![d]⟩ : Shape).Idx → EReal) (h : (⟨1, ![d]⟩ : Shape).ShapeCasts ⟨2, ![1, d]⟩) (k : Fin d) :
    shapeCast ⟨2, ![1, d]⟩ v h (ix2 (0 : Fin 1) k) = v (ix1 k) := shapeCast_a_1a_apply v h 0 k

/-- The second product: the bias spread down the rows, the rectifier against zero, then the product with W₂. -/
theorem second_product (h16 : S16.ShapeCasts S1x16) :
    val_main_v22 (F := Ideal) x0 x1 x2 x3 x4 x5 = Cert.Gcn.hidden (val_main_v17 (F := Ideal) x0 x1 x2 x3) (shapeCast S1x16 x4 h16) x5 := by
  funext i
  obtain ⟨p, q, rfl⟩ : ∃ (p : Fin 100000) (q : Fin 7), i = ix2 p q := ⟨i 0, i 1, eq_ix2 i⟩
  rw [val_main_v22_apply, Cert.Gcn.hidden_apply]
  refine Finset.sum_congr rfl fun k _ => ?_
  have hl : lidx_main_v22 (ix2 p q) k = ix2 p k := funext fun a => Fin.ext (by
    match a with
    | ⟨0, _⟩ => rfl
    | ⟨1, _⟩ => rfl)
  have hr : ridx_main_v22 (ix2 p q) k = ix2 k q := funext fun a => Fin.ext (by
    match a with
    | ⟨0, _⟩ => rfl
    | ⟨1, _⟩ => rfl)
  rw [hl, hr, val_main_v21_apply, val_main_v20_apply, val_main_v19_apply, val_main_v18_apply, val_main_call0_v0_apply, val_main_call0_cst_apply]
  refine congrArg (· * x5 (ix2 k q)) (congrArg₂ max (congrArg₂ (· + ·) rfl ?_) Ideal.ofBits_zero_f32)
  refine Eq.symm ((row_apply x4 h16 k).trans (congrArg x4 (funext fun a => Fin.ext ?_)))
  match a with
  | ⟨0, _⟩ => rfl

/-- The log_softmax of the biased second aggregate. -/
theorem scores (h7 : S7.ShapeCasts S1x7) :
    val_main_v43 (F := Ideal) x0 x1 x2 x3 x4 x5 x6
      = Cert.RowSoftmax.logSoftmax (val_main_v39 (F := Ideal) x0 x1 x2 x3 x4 x5) (shapeCast S1x7 x6 h7) := by
  funext i
  obtain ⟨p, q, rfl⟩ : ∃ (p : Fin 100000) (q : Fin 7), i = ix2 p q := ⟨i 0, i 1, eq_ix2 i⟩
  have hL : ∀ k : Fin 7, val_main_v42 (F := Ideal) x0 x1 x2 x3 x4 x5 x6 (ix2 p k)
      = Cert.RowSoftmax.logit (val_main_v39 (F := Ideal) x0 x1 x2 x3 x4 x5) (shapeCast S1x7 x6 h7) p k := by
    intro k
    rw [val_main_v42_apply, val_main_v41_apply, val_main_v40_apply]
    unfold Cert.RowSoftmax.logit
    refine congrArg₂ (· + ·) rfl ?_
    refine Eq.symm ((row_apply x6 h7 k).trans (congrArg x6 (funext fun a => Fin.ext ?_)))
    match a with
    | ⟨0, _⟩ => rfl
  have hM : ∀ k : Fin 7, val_main_call1_v4 (F := Ideal) x0 x1 x2 x3 x4 x5 x6 (ix2 p k)
      = Cert.RowSoftmax.rowMax (val_main_v39 (F := Ideal) x0 x1 x2 x3 x4 x5) (shapeCast S1x7 x6 h7) p := by
    intro k
    have hj : idx_main_call1_v3 (idx_main_call1_v4 (ix2 p k)) = ix1 p := funext fun a => Fin.ext (by
      match a with
      | ⟨0, _⟩ => rfl)
    have h0 : val_main_call1_v0 (F := Ideal) x0 x1 x2 x3 x4 x5 x6 (ix1 p)
        = (Finset.univ : Finset (Fin 7)).fold max (val_main_call1_cst (F := Ideal) (Shape.Idx.first h_S_))
            (fun k' => val_main_v42 (F := Ideal) x0 x1 x2 x3 x4 x5 x6 (ix2 p k')) := by
      unfold val_main_call1_v0
      exact Cert.RowSoftmax.hostRowMax_apply (val_main_v42 (F := Ideal) x0 x1 x2 x3 x4 x5 x6) (val_main_call1_cst (F := Ideal))
        reducesTo_S100000x7_S100000_d1 (by decide) h_S_ p
    rw [val_main_call1_v4_apply, val_main_call1_v3_apply, hj, val_main_call1_v2_apply, val_main_call1_v1_apply,
      val_main_call1_cst_0_apply, h0, val_main_call1_cst_apply, Ideal.maximumf_def, Ideal.ofBits_def]
    unfold Cert.RowSoftmax.rowMax
    exact (Cert.RowSoftmax.max_fold_self _ _).trans (Finset.fold_congr fun k' _ => hL k')
  have hS : ∀ k : Fin 7, val_main_call1_v5 (F := Ideal) x0 x1 x2 x3 x4 x5 x6 (ix2 p k)
      = Cert.RowSoftmax.shifted (val_main_v39 (F := Ideal) x0 x1 x2 x3 x4 x5) (shapeCast S1x7 x6 h7) p k := by
    intro k
    rw [val_main_call1_v5_apply]
    exact congrArg₂ (· - ·) (hL k) (hM k)
  rw [val_main_v43_apply, Cert.RowSoftmax.logSoftmax_apply]
  refine congrArg₂ (· - ·) (hS q) ?_
  rw [val_main_call1_v10_apply, val_main_call1_v9_apply, val_main_call1_v8_apply, val_main_call1_v7_apply, val_main_call1_cst_1_apply,
    Ideal.hostUnary_log_def, Ideal.ofBits_def, Ideal.ofBits_zero_f32, zero_add]
  refine congrArg Ideal.log ?_
  refine Finset.sum_congr rfl fun k _ => ?_
  rw [val_main_call1_v6_apply, Ideal.hostUnary_exp_def]
  refine congrArg Ideal.exp ?_
  refine (congrArg (val_main_call1_v5 (F := Ideal) x0 x1 x2 x3 x4 x5 x6) (funext fun a => Fin.ext ?_)).trans (hS k)
  match a with
  | ⟨0, _⟩ => rfl
  | ⟨1, _⟩ => rfl

/-- The reference's result is the network of its arguments. -/
theorem result :
    val_main_v43 (F := Ideal) x0 x1 x2 x3 x4 x5 x6 = Cert.KernelIdeal.Result.network x0 x1 x2 x3 x4 x5 x6 := by
  rw [scores x0 x1 x2 x3 x4 x5 x6 Cert.KernelIdeal.Gen.shapeCasts_S7_S1x7, second_aggregate, second_product x0 x1 x2 x3 x4 x5 Cert.KernelIdeal.Gen.shapeCasts_S16_S1x16,
    first_aggregate, first_product]
  rfl

end Cert.ReferenceIdeal.RefValue

end
-- ==== Proof.lean ====
/-
  A two-layer graph convolution, log_softmax (Â · relu (Â · (X · W₁) + b₁) · W₂ + b₂), where Â · H is the weighted
  aggregation of the rows of H along an edge list (a gather of source rows, a product with the edge weights, a
  scatter-add into the destination rows).

  The kernel's program computes the three dense stages in three pipelined regions of ten row blocks each — X · W₁;
  the rectified biased aggregate times W₂; the biased second aggregate's row-wise log-softmax — and the two aggregations
  by host operations between them. The reference computes everything by host operations. Over the extended reals:
  a block's product into a zero accumulator and the host's product are the same sums; every dense stage reads, for an
  output row, the same row of its input, so ten row blocks of 10000 rows tile the whole-array function; the reference's
  log_softmax takes its row maximum once more against the lowest value, which changes nothing; and the two aggregations are
  one and the same chain of host operations in both programs, carried as one function and never opened. Both results are
  therefore one function, `network`, of the seven arguments. No law used needs the inputs finite.

  The three frames: the two kernel programs' are the generated frame certificates; the reference's is its run with the
  result dropped. The idealization rewrote nothing, so `preserves` is trivial.
-/
import proofs.«133962_j90288802497036_1_alg».proof.Defs
import proofs.«133962_j90288802497036_1_alg».proof.Proof.Gen.Kernel
import proofs.«133962_j90288802497036_1_alg».proof.Proof.Gen.Kernel.Skeleton
import proofs.«133962_j90288802497036_1_alg».proof.Proof.Gen.Kernel.Launch
import proofs.«133962_j90288802497036_1_alg».proof.Proof.Gen.Kernel.Points
import proofs.«133962_j90288802497036_1_alg».proof.Proof.Gen.Kernel.Frame
import proofs.«133962_j90288802497036_1_alg».proof.Proof.Gen.KernelIdeal
import proofs.«133962_j90288802497036_1_alg».proof.Proof.Gen.KernelIdeal.Skeleton
import proofs.«133962_j90288802497036_1_alg».proof.Proof.Gen.KernelIdeal.Launch
import proofs.«133962_j90288802497036_1_alg».proof.Proof.Gen.KernelIdeal.Points
import proofs.«133962_j90288802497036_1_alg».proof.Proof.Gen.KernelIdeal.Frame
import proofs.«133962_j90288802497036_1_alg».proof.Proof.Gen.ReferenceIdeal
import proofs.«133962_j90288802497036_1_alg».proof.Proof.Gen.Pre_finite_inputs
import proofs.«133962_j90288802497036_1_alg».proof.Proof.KernelRun
import proofs.«133962_j90288802497036_1_alg».proof.Proof.KernelValue
import proofs.«133962_j90288802497036_1_alg».proof.Proof.RefRun
import proofs.«133962_j90288802497036_1_alg».proof.Proof.RefRead
import proofs.«133962_j90288802497036_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

/-- Both programs end with the network of the arguments in their result arrays. -/
theorem algebraic : Cert.algebraic_KernelIdeal_ReferenceIdeal := by
  intro m ρ m' ρ' _ hagree
  refine ⟨fun c => Cert.KernelIdeal.Result.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.result m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v43_eq, Cert.ReferenceIdeal.RefValue.result]
    obtain ⟨h0, h1, h2, h3, h4, h5, h6⟩ := hagree c
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
